-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S4096 : Shape := ⟨1, ![4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S64x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S64x4096 : Shape := ⟨2, ![64, 4096]⟩
abbrev S4096x4096 : Shape := ⟨2, ![4096, 4096]⟩
abbrev S4096 : Shape := ⟨1, ![4096]⟩
abbrev S64x1024 : Shape := ⟨2, ![64, 1024]⟩
abbrev S512x1024 : Shape := ⟨2, ![512, 1024]⟩
abbrev S512 : Shape := ⟨1, ![512]⟩
abbrev S64x512 : Shape := ⟨2, ![64, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S64x4096, .f32⟩
  | .local _ .vmem, ⟨0, _⟩ => ⟨S64x1024, .f32⟩
  | .local _ .vmem, ⟨1, _⟩ => ⟨S64x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x1024_S512x1024_0_0 : ∀ a, (![0, 0] : Fin 2 → Nat) a + S512x1024.size a ≤ S512x1024.size a
  h_S512x1024 : 0 < S512x1024.numel
  inb_S64x1024_S64x1024_0_0 : ∀ a, (![0, 0] : Fin 2 → Nat) a + S64x1024.size a ≤ S64x1024.size a
  h_S64x1024 : 0 < S64x1024.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  dot_S64x1024_S512x1024_S64x512_1_1_0_0_n_n_wf : DotDims.WF S64x1024 S512x1024 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x4096.size a
  hwx0_0 : ∀ i : grid0.Coords, EltTy.bits .f32 = 32 ∨ (Rect.block (s := S64x4096) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .f32 = 32 ∨ (Rect.block (s := S4096) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S4096.size a
  hwx0_6 : ∀ i : grid0.Coords, EltTy.bits .f32 = 32 ∨ (Rect.block (s := S4096) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x4096.size a
  hwx0_7 : ∀ i : grid0.Coords, EltTy.bits .f32 = 32 ∨ (Rect.block (s := S64x4096) S64x512.size (cc0_transform_7 i) (hinb0_7 i)).WholeWords (EltTy.packing .f32)

variable [Facts₀]

def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S64x4096, .f32⟩
  | .hbm, ⟨40, _⟩ => ⟨S1x4096, .f32⟩
  | .hbm, ⟨41, _⟩ => ⟨S64x4096, .f32⟩
  | .hbm, ⟨42, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  dot_S64x4096_S4096x4096_S64x4096_1_1_0_0_n_n_wf : DotDims.WF S64x4096 S4096x4096 S64x4096 [1] [1] [0] [0] [] []

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

class Facts : Prop extends Facts₀ where

variable [Facts]
-- ==== Proof.KernelPieces.lean ====
/-
  What each control case of the kernel body leaves behind, as values.

  The body has three cases along the reduction axis.  At the first step it zeroes the running tile and then adds
  the step's partial product to it; at the middle steps it adds the step's partial product to what the step
  before left; at the last step it does the same and then stores the running tile plus the bias into the output
  tile.  In each case what the running tile ends holding is the accumulation step applied to what it held
  (zero at the first step), and what the output tile ends holding is the bias step applied to the running tile.
-/
import proofs.«178837_j37950331027759_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A middle step: the running tile gains the step's partial product. -/
theorem scratch_B (c : Dev nD) (i : grid0.Coords) (arg2 : Memref sig .tc .vmem S64x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S64x512 .f32) (harg9 : arg9.IsWhole) (arg10 : Memref sig .tc .vmem S64x512 .f32) (harg10 : arg10.IsWhole) (hc0 : ¬cond0_0 i) (hc1 : ¬cond0_1 i) (x0 : Vec F S64x1024 .f32) (x1 : Vec F S512x1024 .f32) (x2 : Vec F S512x1024 .f32) (x3 : Vec F S512x1024 .f32) (x4 : Vec F S512 .f32) (x5 : Vec F S512 .f32) (x6 : Vec F S512 .f32) (xs0 : Vec F S64x512 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x3 xs0 x0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg10.read_unread,
    View.ld_unit_zero (S := S64x512) hz2, View.ld_unit_zero (S := S512x1024) hz2, View.ld_unit_zero (S := S64x1024) hz2]

/-- The first step: the running tile is zeroed, then gains the step's partial product. -/
theorem scratch_A (c : Dev nD) (i : grid0.Coords) (arg2 : Memref sig .tc .vmem S64x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S64x512 .f32) (harg9 : arg9.IsWhole) (arg10 : Memref sig .tc .vmem S64x512 .f32) (harg10 : arg10.IsWhole) (hc0 : cond0_0 i) (hc1 : ¬cond0_1 i) (x0 : Vec F S64x1024 .f32) (x1 : Vec F S512x1024 .f32) (x2 : Vec F S512x1024 .f32) (x3 : Vec F S512x1024 .f32) (x4 : Vec F S512 .f32) (x5 : Vec F S512 .f32) (x6 : Vec F S512 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x2 x1 x3 (k0_pay1 (F := F)) x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S64x512) hz2]
  simp only [View.readAt_eq_ld, harg2.read_unread, harg3.read_unread, harg4.read_unread, harg5.read_unread, harg6.read_unread, harg7.read_unread, harg8.read_unread, harg10.read_unread,
    View.readCov_unit_zero (S := S64x512) _ hz2,
    View.ld_unit_zero (S := S64x512) hz2, View.ld_unit_zero (S := S512x1024) hz2, View.ld_unit_zero (S := S64x1024) hz2, View.ld_unit_zero (S := S512) hz1]

/-- The last step, the running tile: it gains the step's partial product as at a middle step. -/
theorem scratch_C (c : Dev nD) (i : grid0.Coords) (arg2 : Memref sig .tc .vmem S64x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S64x512 .f32) (harg9 : arg9.IsWhole) (arg10 : Memref sig .tc .vmem S64x512 .f32) (harg10 : arg10.IsWhole) (hc0 : ¬cond0_0 i) (hc1 : cond0_1 i) (x0 : Vec F S64x1024 .f32) (x1 : Vec F S512x1024 .f32) (x2 : Vec F S512x1024 .f32) (x3 : Vec F S512x1024 .f32) (x4 : Vec F S512 .f32) (x5 : Vec F S512 .f32) (x6 : Vec F S512 .f32) (xs0 : Vec F S64x512 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x3 xs0 x0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread,
    View.readCov_unit_zero (S := S64x512) _ hz2,
    View.ld_unit_zero (S := S64x512) hz2, View.ld_unit_zero (S := S512x1024) hz2, View.ld_unit_zero (S := S64x1024) hz2, View.ld_unit_zero (S := S512) hz1]

/-- The last step, the output tile: the updated running tile plus the bias. -/
theorem out_C (c : Dev nD) (i : grid0.Coords) (arg2 : Memref sig .tc .vmem S64x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S64x512 .f32) (harg9 : arg9.IsWhole) (arg10 : Memref sig .tc .vmem S64x512 .f32) (harg10 : arg10.IsWhole) (hc0 : ¬cond0_0 i) (hc1 : cond0_1 i) (x0 : Vec F S64x1024 .f32) (x1 : Vec F S512x1024 .f32) (x2 : Vec F S512x1024 .f32) (x3 : Vec F S512x1024 .f32) (x4 : Vec F S512 .f32) (x5 : Vec F S512 .f32) (x6 : Vec F S512 .f32) (xs0 : Vec F S64x512 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x5 x4 x6 (k0_pay2 x2 x1 x3 xs0 x0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread,
    View.readCov_unit_zero (S := S64x512) _ hz2,
    View.ld_unit_zero (S := S64x512) hz2, View.ld_unit_zero (S := S512x1024) hz2, View.ld_unit_zero (S := S64x1024) hz2, View.ld_unit_zero (S := S512) hz1]

end Cert.KernelIdeal.Pieces

end
-- ==== Proof.Softplus.lean ====
/-
  Softplus and the reparameterized sample, on the extended reals.

  Both programs compute the standard deviation of a weight as `logaddexp(0, ρ)`, spelled
  `select (d ≠ d) (0 + ρ) (max 0 ρ + log1p (exp (−|d|)))` with `d = 0 − ρ`.  On the extended reals nothing
  differs from itself, so the select always takes its second branch; the kernel writes `−|d|` as `0 − |d|`
  and the reference as the negation, which agree because `0 − a = −a`.  This file names the common value
  (`softplus`), the sampled weight `μ + ε · softplus ρ` (`sample`), and reads each program's
  spelling, at one element, as that value.
-/
import Idealize.ShloMosaic.PureOps.Ideal
import Idealize.ShloMosaic.PureOps.Ideal.Laws
import Idealize.ShloMosaic.Lib.ValueIdx

noncomputable section

namespace Cert.BayesLinear

open Idealize.ShloMosaic Idealize.ShloMosaic.ValueIdx

/-- `log(1 + e^ρ)` as both programs compute it: `max 0 ρ + log1p (exp (−|0 − ρ|))`. -/
def softplus (a : EReal) : EReal :=
  max 0 a + Ideal.log1p (Ideal.exp (-(max (0 - a) (-(0 - a)))))

/-- The reparameterized sample `μ + ε · softplus ρ`. -/
def sample (mu eps rho : EReal) : EReal := mu + eps * softplus rho

/-- Nothing differs from itself: the ordered "not equal" of a value with itself is the zero bit. -/
theorem cmp_one_self (d : EReal) : Ideal.cmp .one d d = 0#1 := by
  simp [Ideal.cmp]

/-- The unordered "not equal" answers as its ordered twin. -/
theorem cmp_une_self (d : EReal) : Ideal.cmp .une d d = 0#1 := by
  simp [Ideal.cmp]

/-- The f32 zero word, as the scalar unit reads it at the ideal instance, is the extended real `0`. -/
theorem scalar_zero : (Scalar.ofBits .f32 0x00000000#32 : Ideal .f32) = 0 := Ideal.ofBits_zero_f32

/-- The kernel's spelling of `logaddexp(0, ρ)` at one element: ordered compare, `0 − |d|`. -/
theorem kernel_softplus (z a : Ideal .f32) (hz : z = 0) :
    Scalar.select (FloatOps.cmpf .one (FloatOps.subf z a) (FloatOps.subf z a)) (FloatOps.addf z a)
      (FloatOps.addf (FloatOps.maximumf z a)
        (FloatOps.log1p (FloatOps.exp (FloatOps.subf z (FloatOps.absf (FloatOps.subf z a))))))
      = softplus a := by
  subst hz
  show Scalar.select (Ideal.cmp .one ((0 : EReal) - a) (0 - a)) ((0 : EReal) + a)
      (max (0 : EReal) a + Ideal.log1p (Ideal.exp ((0 : EReal) - max ((0 : EReal) - a) (-((0 : EReal) - a))))) = _
  rw [cmp_one_self, select_zero, zero_sub (max _ _)]
  rfl

/-- The reference's spelling at one element: unordered compare, a negation. -/
theorem host_softplus (z a : Ideal .f32) (hz : z = 0) :
    Scalar.select (FloatOps.cmpf .une (FloatOps.subf z a) (FloatOps.subf z a)) (FloatOps.addf z a)
      (FloatOps.addf (FloatOps.maximumf z a)
        (FloatOps.hostUnary .log1p (FloatOps.hostUnary .exp (FloatOps.hostNegf (FloatOps.hostAbsf (FloatOps.subf z a))))))
      = softplus a := by
  subst hz
  show Scalar.select (Ideal.cmp .une ((0 : EReal) - a) (0 - a)) ((0 : EReal) + a)
      (max (0 : EReal) a + Ideal.log1p (Ideal.exp (-(max ((0 : EReal) - a) (-((0 : EReal) - a)))))) = _
  rw [cmp_une_self, select_zero]
  rfl

/-- The kernel's spelling on a whole block, read at an index. -/
theorem kernel_softplus_apply {s : Shape} (r : FVec Ideal s .f32) (i : s.Idx) :
    select (cmpf .one (subf (broadcast s (Scalar.ofBits .f32 0x00000000#32)) r) (subf (broadcast s (Scalar.ofBits .f32 0x00000000#32)) r))
      (addf (broadcast s (Scalar.ofBits .f32 0x00000000#32)) r)
      (addf (maximumf (broadcast s (Scalar.ofBits .f32 0x00000000#32)) r)
        (log1p (exp (subf (broadcast s (Scalar.ofBits .f32 0x00000000#32))
          (absf (subf (broadcast s (Scalar.ofBits .f32 0x00000000#32)) r)))))) i
      = softplus (r i) :=
  kernel_softplus _ (r i) scalar_zero

end Cert.BayesLinear

end
-- ==== Proof.KernelPayload.lean ====
/-
  What one grid step of the kernel computes, element by element, on the extended reals.

  The reset stores the zero tile.  The accumulation step adds to the running tile the partial dot product of
  the step's input columns with the step's tile of sampled weights: entry `(b, j)` gains
  `∑ₖ x[b,k] · (μ[j,k] + ε[j,k] · softplus ρ[j,k])` over the step's 1024 columns.  The last step adds the
  sampled bias of feature `j` to every row.
-/
import proofs.«178837_j37950331027759_1_alg».proof.Proof.Gen.KernelIdeal.Skeleton
import proofs.«178837_j37950331027759_1_alg».proof.Proof.Softplus
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.BayesLinear

/-- The reset tile is zero everywhere. -/
theorem reset_apply (i : S64x512.Idx) : k0_pay1 (F := Ideal) i = 0 := by
  unfold k0_pay1
  exact (congrFun (shapeCast_self _ _) i).trans scalar_zero

/-! ### The step's matrix product: rows of `x` against rows of the weight tile -/

theorem lhs_row (i : S64x512.Idx) (q : dot_S64x1024_S512x1024_S64x512_1_1_0_0_n_n.contr.Idx) :
    (dot_S64x1024_S512x1024_S64x512_1_1_0_0_n_n.lhsIdx i q 0).val = (i 0).val := by
  unfold DotDims.lhsIdx
  rw [dif_neg (show ¬(0 : Fin S64x1024.rank) ∈ dot_S64x1024_S512x1024_S64x512_1_1_0_0_n_n.lhsBatch by decide), dif_pos (show (0 : Fin S64x1024.rank) ∈ dot_S64x1024_S512x1024_S64x512_1_1_0_0_n_n.lhsNonContracting by decide)]
  rfl
theorem lhs_col (i : S64x512.Idx) (q : dot_S64x1024_S512x1024_S64x512_1_1_0_0_n_n.contr.Idx) :
    (dot_S64x1024_S512x1024_S64x512_1_1_0_0_n_n.lhsIdx i q 1).val = (q ⟨0, by decide⟩).val :=
  dot_S64x1024_S512x1024_S64x512_1_1_0_0_n_n.lhsIdx_val_of_single rfl i q
theorem rhs_row (i : S64x512.Idx) (q : dot_S64x1024_S512x1024_S64x512_1_1_0_0_n_n.contr.Idx) :
    (dot_S64x1024_S512x1024_S64x512_1_1_0_0_n_n.rhsIdx i q 0).val = (i 1).val := by
  unfold DotDims.rhsIdx
  rw [dif_neg (show ¬(0 : Fin S512x1024.rank) ∈ dot_S64x1024_S512x1024_S64x512_1_1_0_0_n_n.rhsBatch by decide), dif_pos (show (0 : Fin S512x1024.rank) ∈ dot_S64x1024_S512x1024_S64x512_1_1_0_0_n_n.rhsNonContracting by decide)]
  rfl
theorem rhs_col (i : S64x512.Idx) (q : dot_S64x1024_S512x1024_S64x512_1_1_0_0_n_n.contr.Idx) :
    (dot_S64x1024_S512x1024_S64x512_1_1_0_0_n_n.rhsIdx i q 1).val = (q ⟨0, by decide⟩).val :=
  dot_S64x1024_S512x1024_S64x512_1_1_0_0_n_n.rhsIdx_val_of_single rfl i q

/-- Into the zero tile, the product at `(b, j)` is the sum over the 1024 shared columns. -/
theorem product_apply (l : FVec Ideal S64x1024 .f32) (r : FVec Ideal S512x1024 .f32) (b : Fin 64) (j : Fin 512) :
    matmul dot_S64x1024_S512x1024_S64x512_1_1_0_0_n_n none l r (constant S64x512 .f32 0x00000000#32) (ix2 b j)
      = ∑ k : Fin 1024, l (ix2 b k) * r (ix2 j k) := by
  simp only [matmul]
  rw [Ideal.matmul_constant_zero_apply, ← Equiv.sum_comp (contrEquiv1 dot_S64x1024_S512x1024_S64x512_1_1_0_0_n_n 1024 rfl rfl).symm]
  refine Finset.sum_congr rfl fun k _ => ?_
  have hk := contrEquiv1_symm_val dot_S64x1024_S512x1024_S64x512_1_1_0_0_n_n 1024 rfl rfl k
  have el : dot_S64x1024_S512x1024_S64x512_1_1_0_0_n_n.lhsIdx (ix2 b j) ((contrEquiv1 dot_S64x1024_S512x1024_S64x512_1_1_0_0_n_n 1024 rfl rfl).symm k) = ix2 b k := funext fun a => Fin.ext (by
    match a with
    | ⟨0, _⟩ => exact lhs_row _ _
    | ⟨1, _⟩ => exact (lhs_col _ _).trans hk)
  have er : dot_S64x1024_S512x1024_S64x512_1_1_0_0_n_n.rhsIdx (ix2 b j) ((contrEquiv1 dot_S64x1024_S512x1024_S64x512_1_1_0_0_n_n 1024 rfl rfl).symm k) = ix2 j k := funext fun a => Fin.ext (by
    match a with
    | ⟨0, _⟩ => exact rhs_row _ _
    | ⟨1, _⟩ => exact (rhs_col _ _).trans hk)
  rw [el, er]

/-- The accumulation step at `(b, j)`: the running value plus the step's partial dot product. -/
theorem step_apply (rho mu eps : Vec Ideal S512x1024 .f32) (acc : Vec Ideal S64x512 .f32) (x : Vec Ideal S64x1024 .f32)
    (b : Fin 64) (j : Fin 512) :
    k0_pay2 rho mu eps acc x (ix2 b j)
      = acc (ix2 b j) + ∑ k : Fin 1024, x (ix2 b k) * sample (mu (ix2 j k)) (eps (ix2 j k)) (rho (ix2 j k)) := by
  unfold k0_pay2
  refine (congrFun (shapeCast_self _ _) (ix2 b j)).trans ?_
  refine congrArg (acc (ix2 b j) + ·) ?_
  refine (product_apply _ _ b j).trans ?_
  refine Finset.sum_congr rfl fun k _ => congrArg (x (ix2 b k) * ·) ?_
  exact congrArg (mu (ix2 j k) + ·) (congrArg (eps (ix2 j k) * ·) (kernel_softplus_apply rho (ix2 j k)))

/-- The last step at `(b, j)`: the accumulated value plus feature `j`'s sampled bias. -/
theorem bias_apply (rho mu eps : Vec Ideal S512 .f32) (acc : Vec Ideal S64x512 .f32) (b : Fin 64) (j : Fin 512) :
    k0_pay3 rho mu eps acc (ix2 b j) = acc (ix2 b j) + sample (mu (ix1 j)) (eps (ix1 j)) (rho (ix1 j)) := by
  unfold k0_pay3
  refine congrArg (acc (ix2 b j) + ·) ?_
  refine (broadcastTo_apply _ _ (ix2 b j) (ix2 (0 : Fin 1) j) (fun a => by
    match a with
    | ⟨0, _⟩ => rfl
    | ⟨1, _⟩ => rfl)).trans ?_
  refine (shapeCast_addUnit_apply ![512] _ _ (ix2 (0 : Fin 1) j)).trans ?_
  have e : (fun a : Fin 1 => (ix2 (0 : Fin 1) j) a.succ) = ix1 j := funext fun a => by
    match a with
    | ⟨0, _⟩ => rfl
  rw [e]
  exact congrArg (mu (ix1 j) + ·) (congrArg (eps (ix1 j) * ·) (kernel_softplus_apply rho (ix1 j)))

end Cert.KernelIdeal.Payload

end
-- ==== Proof.BlockSum.lean ====
/-
  A sum over 4096 contraction positions, taken 1024 at a time.

  The kernel contracts the in-feature axis in four tiles of 1024: it starts from zero and adds one tile's
  partial dot product per grid step.  Addition on the extended reals is commutative and associative, so zero
  plus the four tiles' sums is the whole sum.  `col i k` is position `k` of in-feature tile `i`, and
  `row o j` is output feature `j` of out-feature tile `o`.
-/
import Mathlib.Algebra.BigOperators.Fin
import Mathlib.Logic.Equiv.Fin.Basic
import Mathlib.Data.EReal.Basic

noncomputable section

open scoped BigOperators

namespace Cert.BayesLinear

/-- Position `k` of in-feature tile `i` (the remainder keeps the definition total; inside the range
    `i < 4`, `k < 1024` it is `1024 i + k`). -/
def col (i k : ℕ) : Fin 4096 := ⟨(1024 * i + k) % 4096, Nat.mod_lt _ (by norm_num)⟩

theorem col_val (i k : ℕ) (hi : i < 4) (hk : k < 1024) : (col i k).val = 1024 * i + k := by
  show (1024 * i + k) % 4096 = _
  omega

/-- Output feature `j` of out-feature tile `o` (total by the remainder; inside `o < 8`, `j < 512` it is
    `512 o + j`). -/
def row (o j : ℕ) : Fin 4096 := ⟨(512 * o + j) % 4096, Nat.mod_lt _ (by norm_num)⟩

theorem row_val (o j : ℕ) (ho : o < 8) (hj : j < 512) : (row o j).val = 512 * o + j := by
  show (512 * o + j) % 4096 = _
  omega

/-- The 4096 positions are the four tiles' 1024 positions each. -/
theorem sum_four_tiles {M : Type*} [AddCommMonoid M] (f : Fin 4096 → M) :
    ∑ k : Fin 4096, f k = ∑ i : Fin 4, ∑ k : Fin 1024, f (col i.val k.val) := by
  rw [← Equiv.sum_comp (finProdFinEquiv : Fin 4 × Fin 1024 ≃ Fin 4096) f, Fintype.sum_prod_type]
  refine Finset.sum_congr rfl fun i _ => Finset.sum_congr rfl fun k _ => congrArg f (Fin.ext ?_)
  have hi := i.isLt
  have hk := k.isLt
  show k.val + 1024 * i.val = (1024 * i.val + k.val) % 4096
  omega

/-- Zero plus the four tiles' sums, the tiles counted by a range, is the whole sum. -/
theorem zero_add_tiles (f : Fin 4096 → EReal) :
    0 + ∑ s ∈ Finset.range 4, ∑ k : Fin 1024, f (col s k.val) = ∑ k : Fin 4096, f k := by
  rw [zero_add, Finset.sum_range, sum_four_tiles]

end Cert.BayesLinear

end
-- ==== Proof.KernelBlocks.lean ====
/-
  The kernel's windows, read as pieces of the whole arrays.

  Grid point `t` is out-feature tile `t / 4` at in-feature tile `t % 4`.  There the input window holds
  columns `1024 (t % 4) …` of every row of `x`; each weight window holds rows `512 (t / 4) …` and those
  columns of its matrix; each bias window holds entries `512 (t / 4) …` of its vector.
-/
import proofs.«178837_j37950331027759_1_alg».proof.Proof.Gen.KernelIdeal.Frame
import proofs.«178837_j37950331027759_1_alg».proof.Proof.BlockSum
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.BayesLinear

variable {F : FTy → Type} [FloatOps F]
variable (m : (ℓ : Loc nD τ sig) → Buf (Elt F) ℓ)

/-- The argument arrays, by their literal types. -/
abbrev xArr (c : Dev nD) : Vec F S64x4096 .f32 := m ((c : Thread nD τ).loc main_arg0)
abbrev muArr (c : Dev nD) : Vec F S4096x4096 .f32 := m ((c : Thread nD τ).loc main_arg1)
abbrev rhoArr (c : Dev nD) : Vec F S4096x4096 .f32 := m ((c : Thread nD τ).loc main_arg2)
abbrev bmuArr (c : Dev nD) : Vec F S4096 .f32 := m ((c : Thread nD τ).loc main_arg3)
abbrev brhoArr (c : Dev nD) : Vec F S4096 .f32 := m ((c : Thread nD τ).loc main_arg4)
abbrev epsArr (c : Dev nD) : Vec F S4096x4096 .f32 := m ((c : Thread nD τ).loc main_arg5)
abbrev bepsArr (c : Dev nD) : Vec F S4096 .f32 := m ((c : Thread nD τ).loc main_arg6)

/-- The windows' blocks at a grid point, by their literal types. -/
abbrev xBlk (c : Dev nD) (t : Fin cfg0.N) : Vec F S64x1024 .f32 := iblk m c 0 t
abbrev muBlk (c : Dev nD) (t : Fin cfg0.N) : Vec F S512x1024 .f32 := iblk m c 1 t
abbrev rhoBlk (c : Dev nD) (t : Fin cfg0.N) : Vec F S512x1024 .f32 := iblk m c 2 t
abbrev epsBlk (c : Dev nD) (t : Fin cfg0.N) : Vec F S512x1024 .f32 := iblk m c 3 t
abbrev bmuBlk (c : Dev nD) (t : Fin cfg0.N) : Vec F S512 .f32 := iblk m c 4 t
abbrev brhoBlk (c : Dev nD) (t : Fin cfg0.N) : Vec F S512 .f32 := iblk m c 5 t
abbrev bepsBlk (c : Dev nD) (t : Fin cfg0.N) : Vec F S512 .f32 := iblk m c 6 t

/-- Which block of its array each window is on at point `t`: decided over the grid's 32 points. -/
theorem idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 1) = t.val / 4
    ∧ win0_5.index t (0 : Fin 1) = t.val / 4
    ∧ win0_6.index t (0 : Fin 1) = t.val / 4
    ∧ win0_7.index t (0 : Fin 2) = 0 ∧ win0_7.index t (1 : Fin 2) = t.val / 4 :=
  (by decide +kernel : ∀ t : Fin grid0.N, _)

theorem point_lt (t : Fin cfg0.N) : t.val < 32 := lt_of_lt_of_eq t.isLt (show cfg0.N = 32 from N_0)

/-- The input window at `t`: columns of tile `t % 4`. -/
theorem xBlk_apply (c : Dev nD) (t : Fin cfg0.N) (b : Fin 64) (k : Fin 1024) :
    xBlk m c t (ix2 b k) = xArr m c (ix2 b (col (t.val % 4) k.val)) := by
  obtain ⟨e0, e1, -⟩ := idx_facts t
  have hk := k.isLt
  have hc := col_val (t.val % 4) k.val (by omega) hk
  unfold xBlk iblk
  rw [View.read_apply]
  show V m c main_arg0 _ = m (c.tc.loc main_arg0) _
  unfold V
  congr 1
  funext a
  apply Fin.ext
  match a with
  | ⟨0, _⟩ => show win0_0.index t (0 : Fin 2) * 64 + 1 * b.val = b.val; omega
  | ⟨1, _⟩ => show win0_0.index t (1 : Fin 2) * 1024 + 1 * k.val = (col (t.val % 4) k.val).val; omega

/-- The weight-mean window at `t`: rows of tile `t / 4`, columns of tile `t % 4`. -/
theorem muBlk_apply (c : Dev nD) (t : Fin cfg0.N) (j : Fin 512) (k : Fin 1024) :
    muBlk m c t (ix2 j k) = muArr m c (ix2 (row (t.val / 4) j.val) (col (t.val % 4) k.val)) := by
  obtain ⟨-, -, f10, f11, f20, f21, f30, f31, -⟩ := idx_facts t
  have ht := point_lt t
  have hj := j.isLt
  have hk := k.isLt
  have hr := row_val (t.val / 4) j.val (by omega) hj
  have hc := col_val (t.val % 4) k.val (by omega) hk
  unfold muBlk iblk
  rw [View.read_apply]
  show V m c main_arg1 _ = m (c.tc.loc main_arg1) _
  unfold V
  congr 1
  funext a
  apply Fin.ext
  match a with
  | ⟨0, _⟩ => show win0_1.index t (0 : Fin 2) * 512 + 1 * j.val = (row (t.val / 4) j.val).val; omega
  | ⟨1, _⟩ => show win0_1.index t (1 : Fin 2) * 1024 + 1 * k.val = (col (t.val % 4) k.val).val; omega

/-- The weight-scale window at `t`, likewise. -/
theorem rhoBlk_apply (c : Dev nD) (t : Fin cfg0.N) (j : Fin 512) (k : Fin 1024) :
    rhoBlk m c t (ix2 j k) = rhoArr m c (ix2 (row (t.val / 4) j.val) (col (t.val % 4) k.val)) := by
  obtain ⟨-, -, f10, f11, f20, f21, f30, f31, -⟩ := idx_facts t
  have ht := point_lt t
  have hj := j.isLt
  have hk := k.isLt
  have hr := row_val (t.val / 4) j.val (by omega) hj
  have hc := col_val (t.val % 4) k.val (by omega) hk
  unfold rhoBlk iblk
  rw [View.read_apply]
  show V m c main_arg2 _ = m (c.tc.loc main_arg2) _
  unfold V
  congr 1
  funext a
  apply Fin.ext
  match a with
  | ⟨0, _⟩ => show win0_2.index t (0 : Fin 2) * 512 + 1 * j.val = (row (t.val / 4) j.val).val; omega
  | ⟨1, _⟩ => show win0_2.index t (1 : Fin 2) * 1024 + 1 * k.val = (col (t.val % 4) k.val).val; omega

/-- The weight-noise window at `t`, likewise. -/
theorem epsBlk_apply (c : Dev nD) (t : Fin cfg0.N) (j : Fin 512) (k : Fin 1024) :
    epsBlk m c t (ix2 j k) = epsArr m c (ix2 (row (t.val / 4) j.val) (col (t.val % 4) k.val)) := by
  obtain ⟨-, -, f10, f11, f20, f21, f30, f31, -⟩ := idx_facts t
  have ht := point_lt t
  have hj := j.isLt
  have hk := k.isLt
  have hr := row_val (t.val / 4) j.val (by omega) hj
  have hc := col_val (t.val % 4) k.val (by omega) hk
  unfold epsBlk iblk
  rw [View.read_apply]
  show V m c main_arg5 _ = m (c.tc.loc main_arg5) _
  unfold V
  congr 1
  funext a
  apply Fin.ext
  match a with
  | ⟨0, _⟩ => show win0_3.index t (0 : Fin 2) * 512 + 1 * j.val = (row (t.val / 4) j.val).val; omega
  | ⟨1, _⟩ => show win0_3.index t (1 : Fin 2) * 1024 + 1 * k.val = (col (t.val % 4) k.val).val; omega

/-- The bias-mean window at `t`: entries of tile `t / 4`. -/
theorem bmuBlk_apply (c : Dev nD) (t : Fin cfg0.N) (j : Fin 512) :
    bmuBlk m c t (ix1 j) = bmuArr m c (ix1 (row (t.val / 4) j.val)) := by
  obtain ⟨-, -, -, -, -, -, -, -, f4, f5, f6, -⟩ := idx_facts t
  have ht := point_lt t
  have hj := j.isLt
  have hr := row_val (t.val / 4) j.val (by omega) hj
  unfold bmuBlk iblk
  rw [View.read_apply]
  show V m c main_arg3 _ = m (c.tc.loc main_arg3) _
  unfold V
  congr 1
  funext a
  apply Fin.ext
  match a with
  | ⟨0, _⟩ => show win0_4.index t (0 : Fin 1) * 512 + 1 * j.val = (row (t.val / 4) j.val).val; omega

/-- The bias-scale window at `t`, likewise. -/
theorem brhoBlk_apply (c : Dev nD) (t : Fin cfg0.N) (j : Fin 512) :
    brhoBlk m c t (ix1 j) = brhoArr m c (ix1 (row (t.val / 4) j.val)) := by
  obtain ⟨-, -, -, -, -, -, -, -, f4, f5, f6, -⟩ := idx_facts t
  have ht := point_lt t
  have hj := j.isLt
  have hr := row_val (t.val / 4) j.val (by omega) hj
  unfold brhoBlk iblk
  rw [View.read_apply]
  show V m c main_arg4 _ = m (c.tc.loc main_arg4) _
  unfold V
  congr 1
  funext a
  apply Fin.ext
  match a with
  | ⟨0, _⟩ => show win0_5.index t (0 : Fin 1) * 512 + 1 * j.val = (row (t.val / 4) j.val).val; omega

/-- The bias-noise window at `t`, likewise. -/
theorem bepsBlk_apply (c : Dev nD) (t : Fin cfg0.N) (j : Fin 512) :
    bepsBlk m c t (ix1 j) = bepsArr m c (ix1 (row (t.val / 4) j.val)) := by
  obtain ⟨-, -, -, -, -, -, -, -, f4, f5, f6, -⟩ := idx_facts t
  have ht := point_lt t
  have hj := j.isLt
  have hr := row_val (t.val / 4) j.val (by omega) hj
  unfold bepsBlk iblk
  rw [View.read_apply]
  show V m c main_arg6 _ = m (c.tc.loc main_arg6) _
  unfold V
  congr 1
  funext a
  apply Fin.ext
  match a with
  | ⟨0, _⟩ => show win0_6.index t (0 : Fin 1) * 512 + 1 * j.val = (row (t.val / 4) j.val).val; omega

end Cert.KernelIdeal.Blocks

end
-- ==== Proof.Layer.lean ====
/-
  The Bayesian linear layer as one function of its seven arguments.

  Entry `(b, n)` of the result is the dot product of input row `b` with the sampled weight row `n`,
  `∑ₖ x[b,k] · (W_mu[n,k] + W_rand[n,k] · softplus W_rho[n,k])`, plus the sampled bias
  `b_mu[n] + b_rand[n] · softplus b_rho[n]`.  Both programs are shown to end with this array.
-/
import proofs.«178837_j37950331027759_1_alg».proof.Proof.Softplus

noncomputable section

open scoped BigOperators

namespace Cert.BayesLinear

open Idealize.ShloMosaic Idealize.ShloMosaic.ValueIdx

/-- The sampled weight at row `n`, column `k`. -/
def weight (Wmu Wrho Wrand : (⟨2, ![4096, 4096]⟩ : Shape).Idx → EReal) (n k : Fin 4096) : EReal :=
  sample (Wmu (ix2 n k)) (Wrand (ix2 n k)) (Wrho (ix2 n k))

/-- The sampled bias at output feature `n`. -/
def bias (bmu brho brand : (⟨1, ![4096]⟩ : Shape).Idx → EReal) (n : Fin 4096) : EReal :=
  sample (bmu (ix1 n)) (brand (ix1 n)) (brho (ix1 n))

/-- One product of the contraction: `x[b,k] · W[n,k]`. -/
def term (x : (⟨2, ![64, 4096]⟩ : Shape).Idx → EReal) (Wmu Wrho Wrand : (⟨2, ![4096, 4096]⟩ : Shape).Idx → EReal)
    (b : Fin 64) (n k : Fin 4096) : EReal :=
  x (ix2 b k) * weight Wmu Wrho Wrand n k

/-- Entry `(b, n)` of the layer's output. -/
def layerAt (x : (⟨2, ![64, 4096]⟩ : Shape).Idx → EReal) (Wmu Wrho Wrand : (⟨2, ![4096, 4096]⟩ : Shape).Idx → EReal)
    (bmu brho brand : (⟨1, ![4096]⟩ : Shape).Idx → EReal) (b : Fin 64) (n : Fin 4096) : EReal :=
  (∑ k : Fin 4096, term x Wmu Wrho Wrand b n k) + bias bmu brho brand n

/-- The layer's output array. -/
def layer (x : (⟨2, ![64, 4096]⟩ : Shape).Idx → EReal) (Wmu Wrho Wrand : (⟨2, ![4096, 4096]⟩ : Shape).Idx → EReal)
    (bmu brho brand : (⟨1, ![4096]⟩ : Shape).Idx → EReal) : (⟨2, ![64, 4096]⟩ : Shape).Idx → EReal :=
  fun i => layerAt x Wmu Wrho Wrand bmu brho brand (i 0) (i 1)

end Cert.BayesLinear

end
-- ==== Proof.KernelAccum.lean ====
/-
  The running tile is a running sum, and the output tile is the layer.

  Along one out-feature tile's four grid steps the running tile starts at zero plus the first partial dot
  product and gains one more partial dot product per step, so after step `i` it holds zero plus the sum of
  the partial products of in-feature tiles `0 … i`.  The last step stores that total plus the sampled bias
  into the output tile; the four tiles' 1024 columns are all 4096 columns, so the stored value is the layer's
  entry.
-/
import proofs.«178837_j37950331027759_1_alg».proof.Proof.Gen.KernelIdeal.Value
import proofs.«178837_j37950331027759_1_alg».proof.Proof.KernelPieces
import proofs.«178837_j37950331027759_1_alg».proof.Proof.KernelPayload
import proofs.«178837_j37950331027759_1_alg».proof.Proof.KernelBlocks
import proofs.«178837_j37950331027759_1_alg».proof.Proof.Layer

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.BayesLinear
open Cert.KernelIdeal.Pieces Cert.KernelIdeal.Payload Cert.KernelIdeal.Blocks

variable (m : (ℓ : Loc nD τ sig) → Buf (Elt Ideal) ℓ)

/-- Grid point `n`'s partial dot product at tile entry `(b, j)`: row `b` of `x` against sampled weight
    row `512 (n / 4) + j`, over the columns of in-feature tile `n % 4`. -/
def tileSum (c : Dev nD) (n : ℕ) (b : Fin 64) (j : Fin 512) : EReal :=
  ∑ k : Fin 1024, term (xArr m c) (muArr m c) (rhoArr m c) (epsArr m c) b (row (n / 4) j.val) (col (n % 4) k.val)

/-- The same as a tile. -/
def addend (c : Dev nD) (n : ℕ) : S64x512.Idx → EReal := fun i => tileSum m c n (i 0) (i 1)

/-- The accumulation step at point `t` adds that point's partial dot product. -/
theorem step_at (c : Dev nD) (t : Fin cfg0.N) (acc : Vec Ideal S64x512 .f32) (i : S64x512.Idx) :
    k0_pay2 (rhoBlk m c t) (muBlk m c t) (epsBlk m c t) acc (xBlk m c t) i = acc i + addend m c t.val i := by
  obtain ⟨b, j, rfl⟩ : ∃ (b : Fin 64) (j : Fin 512), i = ix2 b j := ⟨i 0, i 1, eq_ix2 i⟩
  rw [step_apply]
  refine congrArg (fun s : EReal => acc (ix2 b j) + s) ?_
  unfold addend tileSum
  refine Finset.sum_congr rfl fun k _ => ?_
  rw [xBlk_apply, muBlk_apply, rhoBlk_apply, epsBlk_apply]
  rfl

/-- At a tile's first point the scratch is zeroed and stepped, whatever it held. -/
theorem scAt_reset (c : Dev nD) (n : ℕ) (h : n < cfg0.N) (h0 : n % 4 = 0) (acc : Vec Ideal S64x512 .f32) :
    Value.scAt0_0 m c n h acc
      = k0_pay2 (rhoBlk m c ⟨n, h⟩) (muBlk m c ⟨n, h⟩) (epsBlk m c ⟨n, h⟩) (k0_pay1 (F := Ideal)) (xBlk m c ⟨n, h⟩) := by
  unfold Value.scAt0_0
  rw [dif_pos h0, dif_neg (by omega)]
  exact scratch_A _ _ _ _ _ _ _ _ _ _ _ _ _ _ _ _ _ _ _ _ _ _ _ _ _ _ _ _ _

/-- At every other point it is stepped from what the point before left. -/
theorem scAt_step (c : Dev nD) (n : ℕ) (h : n < cfg0.N) (h0 : ¬n % 4 = 0) (acc : Vec Ideal S64x512 .f32) :
    Value.scAt0_0 m c n h acc
      = k0_pay2 (rhoBlk m c ⟨n, h⟩) (muBlk m c ⟨n, h⟩) (epsBlk m c ⟨n, h⟩) acc (xBlk m c ⟨n, h⟩) := by
  unfold Value.scAt0_0
  rw [dif_neg h0]
  by_cases h1 : n % 4 = 3
  · rw [dif_pos h1]
    exact scratch_C _ _ _ _ _ _ _ _ _ _ _ _ _ _ _ _ _ _ _ _ _ _ _ _ _ _ _ _ _ _
  · rw [dif_neg h1]
    exact scratch_B _ _ _ _ _ _ _ _ _ _ _ _ _ _ _ _ _ _ _ _ _ _ _ _ _ _ _ _ _ _

/-- After point `t` the running tile holds zero plus the partial dot products of its out-feature tile's
    points up to `t`. -/
theorem scratch_after (c : Dev nD) (t : Fin cfg0.N) (i : S64x512.Idx) :
    (outsAt0 m c t.val t.isLt).2 i
      = 0 + ∑ s ∈ Finset.range (t.val % 4 + 1), addend m c (4 * (t.val / 4) + s) i := by
  have ht := point_lt t
  rw [Value.soutsAt0_0_eq]
  refine Pipeline.accAt_add_apply _ _ (fun _ => (0 : EReal)) (addend m c) (4 * (t.val / 4)) 3 ?_ ?_ (t.val % 4) (by omega) _ i
  · intro h i
    show Value.scAt0_0 m c (4 * (t.val / 4)) h _ i = 0 + addend m c (4 * (t.val / 4)) i
    rw [scAt_reset m c _ h (by omega)]
    refine (step_at m c ⟨_, h⟩ _ i).trans ?_
    exact congrArg (fun z : EReal => z + addend m c (4 * (t.val / 4)) i) (reset_apply i)
  · intro n h acc i h1 h2
    rw [scAt_step m c n h (by omega)]
    exact step_at m c ⟨n, h⟩ acc i

/-- The layer of the kernel's argument arrays. -/
abbrev result (c : Dev nD) : Buf (Elt Ideal) ((c : Thread nD τ).loc main_v0) :=
  layer (xArr m c) (muArr m c) (rhoArr m c) (epsArr m c) (bmuArr m c) (brhoArr m c) (bepsArr m c)

/-- At a tile's last point the output tile holds the layer's entries for that tile's features. -/
theorem out_tile (c : Dev nD) (t : Fin cfg0.N) (h3 : t.val % 4 = 3) (b : Fin 64) (j : Fin 512) :
    (outsAt0 m c t.val t.isLt).1 (ix2 b j) = result m c (ix2 b (row (t.val / 4) j.val)) := by
  have ht := point_lt t
  have h0 : ¬t.val % 4 = 0 := by omega
  have e1 : (outsAt0 m c t.val t.isLt).1
      = k0_pay3 (brhoBlk m c t) (bmuBlk m c t) (bepsBlk m c t) ((outsAt0 m c t.val t.isLt).2) := by
    rw [outsAt0_C m c t h0 h3]
    dsimp only
    rw [out_C, scratch_C]
  rw [e1, bias_apply, scratch_after m c t (ix2 b j), h3, bmuBlk_apply, brhoBlk_apply, bepsBlk_apply]
  show _ = layerAt (xArr m c) (muArr m c) (rhoArr m c) (epsArr m c) (bmuArr m c) (brhoArr m c) (bepsArr m c) b (row (t.val / 4) j.val)
  unfold layerAt
  refine congrArg (fun z : EReal => z + bias (bmuArr m c) (brhoArr m c) (bepsArr m c) (row (t.val / 4) j.val)) ?_
  rw [← zero_add_tiles]
  refine congrArg (fun z : EReal => 0 + z) (Finset.sum_congr rfl fun s hs => ?_)
  have hs4 : s < 4 := Finset.mem_range.mp hs
  show tileSum m c (4 * (t.val / 4) + s) b j = _
  unfold tileSum
  rw [show (4 * (t.val / 4) + s) / 4 = t.val / 4 by omega, show (4 * (t.val / 4) + s) % 4 = s by omega]

/-- What a tile's last point writes back is its block of the layer: output tile `t / 4` sits at columns
    `512 (t / 4) …` of every row. -/
theorem flushed_eq (c : Dev nD) (t : Fin cfg0.N) (hf : (cfg0.win 7).flush t = true) :
    (dats m 0 c).flushed 7 t = ((cfg0.win 7).blk t).view.read (Elt Ideal) (result m c) := by
  have h3 : t.val % 4 = 3 := (flush0_7 t).mp hf
  have ht := point_lt t
  obtain ⟨-, -, -, -, -, -, -, -, -, -, -, f70, f71⟩ := idx_facts t
  rw [Value.flushed7]
  funext y
  have hy0 : (y 0).val < 64 := (y 0).isLt
  have hy1 : (y 1).val < 512 := (y 1).isLt
  have hr := row_val (t.val / 4) (y 1).val (by omega) hy1
  have hy : y = ix2 (⟨(y 0).val, hy0⟩ : Fin 64) (⟨(y 1).val, hy1⟩ : Fin 512) := funext fun a => by
    match a with
    | ⟨0, _⟩ => rfl
    | ⟨1, _⟩ => rfl
  have e : ((cfg0.win 7).blk t).view.emb y = ix2 (⟨(y 0).val, hy0⟩ : Fin 64) (row (t.val / 4) (y 1).val) := by
    funext a
    apply Fin.ext
    match a with
    | ⟨0, _⟩ => show win0_7.index t (0 : Fin 2) * 64 + 1 * (y 0).val = (y 0).val; omega
    | ⟨1, _⟩ => show win0_7.index t (1 : Fin 2) * 512 + 1 * (y 1).val = (row (t.val / 4) (y 1).val).val; omega
  show (outsAt0 m c t.val t.isLt).1 y = result m c (((cfg0.win 7).blk t).view.emb y)
  rw [e]
  exact (congrArg (outsAt0 m c t.val t.isLt).1 hy).trans (out_tile m c t h3 ⟨(y 0).val, hy0⟩ ⟨(y 1).val, hy1⟩)

/-- Every entry of the result lies in the block some tile's last point writes back: feature `n` in tile
    `n / 512`'s. -/
theorem cover (i : S64x4096.Idx) :
    ∃ t : Fin cfg0.N, (cfg0.win 7).flush t = true ∧ i ∈ ((cfg0.win 7).blk t).view.set := by
  have hi0 : (i 0).val < 64 := (i 0).isLt
  have hi1 : (i 1).val < 4096 := (i 1).isLt
  have hN : cfg0.N = 32 := N_0
  let t : Fin cfg0.N := ⟨4 * ((i 1).val / 512) + 3, by rw [hN]; omega⟩
  have htv : t.val = 4 * ((i 1).val / 512) + 3 := rfl
  obtain ⟨-, -, -, -, -, -, -, -, -, -, -, f70, f71⟩ := idx_facts t
  refine ⟨t, (flush0_7 t).mpr (by omega), ?_⟩
  show i ∈ ((View.whole main_v0).slice (win0_7.rect t)).set
  rw [View.set_slice_whole, Rect.mem_set_unit]
  intro a
  match a with
  | ⟨0, _⟩ =>
    show win0_7.index t (0 : Fin 2) * 64 ≤ (i 0).val ∧ (i 0).val < win0_7.index t (0 : Fin 2) * 64 + 64
    omega
  | ⟨1, _⟩ =>
    show win0_7.index t (1 : Fin 2) * 512 ≤ (i 1).val ∧ (i 1).val < win0_7.index t (1 : Fin 2) * 512 + 512
    omega

/-- So the result array ends holding the layer. -/
theorem final (c : Dev nD) : (dats m 0 c).arrAt 7 cfg0.N = result m c :=
  (dats m 0 c).arrAt_eq_of_cover 7 (result m c) (flushed_eq m c) cover

/-- The kernel's run, read: the result array at the layer of the arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Accum

end
-- ==== Proof.RefIsLayer.lean ====
/-
  The reference computes the layer.

  Read one operation at a time, the reference's result at `(b, n)` is the host's contraction
  `∑ₖ x[b,k] · W[n,k]` of the input with the sampled weight matrix, plus the sampled bias `n` broadcast down
  the rows.  Each sampled entry is the host's spelling of `μ + ε · softplus ρ`, whose zeros are a broadcast
  scalar constant.
-/
import proofs.«178837_j37950331027759_1_alg».proof.Proof.Gen.ReferenceIdeal.Read
import proofs.«178837_j37950331027759_1_alg».proof.Proof.Layer

noncomputable section

open scoped BigOperators

namespace Cert.ReferenceIdeal.RefValue

open Cert.ReferenceIdeal Cert.ReferenceIdeal.Read Idealize.ShloMosaic Idealize.ShloMosaic.ValueIdx Cert.BayesLinear

/-- The broadcast zeros of the weight matrix's softplus are `0`. -/
theorem zero_v0 (i : S4096x4096.Idx) : val_main_v0 (F := Ideal) i = 0 :=
  (val_main_v0_apply i).trans Ideal.ofBits_zero_f32
theorem zero_v2 (i : S4096x4096.Idx) : val_main_v2 (F := Ideal) i = 0 :=
  (val_main_v2_apply i).trans Ideal.ofBits_zero_f32
theorem zero_v5 (i : S4096x4096.Idx) : val_main_v5 (F := Ideal) i = 0 :=
  (val_main_v5_apply i).trans Ideal.ofBits_zero_f32
/-- The broadcast zeros of the bias's softplus are `0`. -/
theorem zero_v15 (i : S4096.Idx) : val_main_v15 (F := Ideal) i = 0 :=
  (val_main_v15_apply i).trans Ideal.ofBits_zero_f32
theorem zero_v17 (i : S4096.Idx) : val_main_v17 (F := Ideal) i = 0 :=
  (val_main_v17_apply i).trans Ideal.ofBits_zero_f32
theorem zero_v20 (i : S4096.Idx) : val_main_v20 (F := Ideal) i = 0 :=
  (val_main_v20_apply i).trans Ideal.ofBits_zero_f32

/-- The reference's sampled weight matrix at `(n, k)`. -/
theorem weight_apply (x1 x2 x5 : (⟨S4096x4096, .f32⟩ : BufTy).Contents (Elt Ideal)) (n k : Fin 4096) :
    val_main_v14 (F := Ideal) x1 x2 x5 (ix2 n k) = weight x1 x2 x5 n k := by
  rw [val_main_v14_apply, val_main_v13_apply, val_main_v12_apply, val_main_v4_apply, val_main_v6_apply, val_main_v11_apply,
    val_main_v1_apply, val_main_v10_apply, val_main_v9_apply, val_main_v8_apply, val_main_v7_apply, val_main_v3_apply,
    zero_v0, zero_v2, zero_v5]
  exact congrArg (x1 (ix2 n k) + ·) (congrArg (x5 (ix2 n k) * ·) (host_softplus 0 _ rfl))

/-- The reference's sampled bias at feature `n`. -/
theorem bias_apply (x3 x4 x6 : (⟨S4096, .f32⟩ : BufTy).Contents (Elt Ideal)) (n : Fin 4096) :
    val_main_v29 (F := Ideal) x3 x4 x6 (ix1 n) = bias x3 x4 x6 n := by
  rw [val_main_v29_apply, val_main_v28_apply, val_main_v27_apply, val_main_v19_apply, val_main_v21_apply, val_main_v26_apply,
    val_main_v16_apply, val_main_v25_apply, val_main_v24_apply, val_main_v23_apply, val_main_v22_apply, val_main_v18_apply,
    zero_v15, zero_v17, zero_v20]
  exact congrArg (x3 (ix1 n) + ·) (congrArg (x6 (ix1 n) * ·) (host_softplus 0 _ rfl))

/-- The reference's result array is the layer of its arguments (the weights in the reference's own order:
    mean, scale parameter, then — after the two bias vectors — the noise). -/
theorem result_eq (x0 : (⟨S64x4096, .f32⟩ : BufTy).Contents (Elt Ideal)) (x1 x2 : (⟨S4096x4096, .f32⟩ : BufTy).Contents (Elt Ideal))
    (x3 x4 : (⟨S4096, .f32⟩ : BufTy).Contents (Elt Ideal)) (x5 : (⟨S4096x4096, .f32⟩ : BufTy).Contents (Elt Ideal))
    (x6 : (⟨S4096, .f32⟩ : BufTy).Contents (Elt Ideal)) :
    val_main_v33 (F := Ideal) x0 x1 x2 x3 x4 x5 x6 = layer x0 x1 x2 x5 x3 x4 x6 := by
  funext i
  obtain ⟨b, n, rfl⟩ : ∃ (b : Fin 64) (n : Fin 4096), i = ix2 b n := ⟨i 0, i 1, eq_ix2 i⟩
  have hl : ∀ k : Fin 4096, lidx_main_v30 (ix2 b n) k = ix2 b k := fun k => funext fun a => by
    match a with
    | ⟨0, _⟩ => rfl
    | ⟨1, _⟩ => rfl
  have hr : ∀ k : Fin 4096, ridx_main_v30 (ix2 b n) k = ix2 n k := fun k => funext fun a => by
    match a with
    | ⟨0, _⟩ => rfl
    | ⟨1, _⟩ => rfl
  have hb : idx_main_v31 (idx_main_v32 (ix2 b n)) = ix1 n := funext fun a => by
    match a with
    | ⟨0, _⟩ => rfl
  rw [val_main_v33_apply, val_main_v30_apply, val_main_v32_apply, val_main_v31_apply, hb, bias_apply]
  refine congrArg (· + bias x3 x4 x6 n) ?_
  refine Finset.sum_congr rfl fun k _ => ?_
  rw [hl, hr, weight_apply]
  rfl

end Cert.ReferenceIdeal.RefValue

end
-- ==== Proof.lean ====
/-
  A reparameterized Bayesian linear layer: a fused, tiled kernel against its plain reference.

  Both programs compute `x · Wᵀ + b` with sampled parameters `W = W_mu + W_rand · softplus W_rho` and
  `b = b_mu + b_rand · softplus b_rho`, where `softplus ρ = log(1 + e^ρ)` is spelled
  `max 0 ρ + log1p (exp (−|0 − ρ|))` behind a select on `d ≠ d` that never fires on the extended reals
  (Proof/Softplus.lean).  The layer as one function of the seven arguments is Proof/Layer.lean.

  The reference samples the whole weight matrix, contracts it with `x` in one product and adds the bias
  broadcast down the rows; read one operation at a time it is the layer (Proof/RefIsLayer.lean).

  The kernel walks a grid of 8 out-feature tiles by 4 in-feature tiles.  At each point it samples a
  512 × 1024 tile of weights from the three weight windows and adds the partial dot product with the
  64 × 1024 window of `x` into a running 64 × 512 tile, zeroed at a tile's first point; at its last point it
  adds the sampled bias and stores the output tile (Proof/KernelPayload.lean: each step element by element;
  Proof/KernelPieces.lean: what each of the body's three control cases leaves; Proof/KernelBlocks.lean: the
  windows as pieces of the whole arrays).  So the running tile is a running sum of four partial dot products
  whose columns together are all 4096 columns, and since addition of extended reals is commutative and
  associative the stored value is the layer's entry (Proof/BlockSum.lean, Proof/KernelAccum.lean).  The eight
  output tiles cover the result array.

  No law used needs finiteness: the precondition is never opened.  The ideal pass rewrote nothing, so the
  idealization claim is trivial; the three frames are the generated ones.
-/
import proofs.«178837_j37950331027759_1_alg».proof.Defs
import proofs.«178837_j37950331027759_1_alg».proof.Proof.Gen.Kernel
import proofs.«178837_j37950331027759_1_alg».proof.Proof.Gen.Kernel.Skeleton
import proofs.«178837_j37950331027759_1_alg».proof.Proof.Gen.Kernel.Launch
import proofs.«178837_j37950331027759_1_alg».proof.Proof.Gen.Kernel.Points
import proofs.«178837_j37950331027759_1_alg».proof.Proof.Gen.Kernel.Frame
import proofs.«178837_j37950331027759_1_alg».proof.Proof.Gen.KernelIdeal
import proofs.«178837_j37950331027759_1_alg».proof.Proof.Gen.KernelIdeal.Skeleton
import proofs.«178837_j37950331027759_1_alg».proof.Proof.Gen.KernelIdeal.Launch
import proofs.«178837_j37950331027759_1_alg».proof.Proof.Gen.KernelIdeal.Points
import proofs.«178837_j37950331027759_1_alg».proof.Proof.Gen.KernelIdeal.Frame
import proofs.«178837_j37950331027759_1_alg».proof.Proof.Gen.ReferenceIdeal
import proofs.«178837_j37950331027759_1_alg».proof.Proof.Gen.Pre_finite_inputs
import proofs.«178837_j37950331027759_1_alg».proof.Proof.Gen.KernelIdeal.Value
import proofs.«178837_j37950331027759_1_alg».proof.Proof.Gen.ReferenceIdeal.Run
import proofs.«178837_j37950331027759_1_alg».proof.Proof.Gen.ReferenceIdeal.Read
import proofs.«178837_j37950331027759_1_alg».proof.Proof.KernelAccum
import proofs.«178837_j37950331027759_1_alg».proof.Proof.RefIsLayer
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the layer of its arguments and the
    reference's at the layer of its own: one function of equal arguments. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v33_eq, Cert.ReferenceIdeal.RefValue.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
